-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.KernelStores.lean ====
/-
  What the body leaves in its two output blocks at one grid point, as pure functions of the two input blocks.

  The body first stores the doubled positive part of the hidden-state block into the block of the second result, then
  reads that block back twice (once for the squares that are summed along each row, once for the factor that is scaled)
  and stores the scaled block into the block of the first result. A read of a whole block after one whole-block store
  returns what was stored, so the first result's block is the second payload applied to the first payload (in both of
  its read-back places) and to the weight row, and the second result's block is the first payload itself.
-/
import proofs.«403060_j69784628625431_3_alg».proof.Proof.Gen.KernelIdeal.Frame
import Idealize.ShloMosaic.Lib.Pipeline.Value

set_option maxRecDepth 16384

noncomputable section

namespace Cert.KernelIdeal.Stores

open Cert.KernelIdeal Cert.KernelIdeal.Gen Idealize.ShloMosaic Idealize.ShloMosaic.TcCoe Idealize.ShloMosaic.Tactic Idealize.SL.Sem

variable {F : FTy → Type} [FloatOps F]

/-- Every access of the body starts at the block's origin. -/
theorem origin : (![0, 0] : Fin 2 → Nat) = fun _ => 0 :=
  funext fun a => match a with | ⟨0, _⟩ => rfl | ⟨1, _⟩ => rfl

/-- The block of the second result after the body: the doubled positive part of the hidden-state block. -/
theorem resid_block (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole)
    (x0 : Vec F S256x4096 .f32) (x1 : Vec F S1x4096 .f32) :
    out0_A_3 c i arg1 harg1 arg2 harg2 arg3 harg3 arg4 harg4 x0 x1 = k0_pay1 x0 := by
  unfold out0_A_3
  rw [View.read_writes_eq_canon _ _ _ (cover0_A_3 c i arg1 harg1 arg2 harg2 arg3 harg3 arg4 harg4 x0 x1)]
  unfold kernelRun0_A
  dsimp only
  sl_unfold_words
  rw [View.canon_unit_zero (S := S256x4096) origin]
  simp only [View.readAt_eq_ld, harg1.read_unread, View.ld_unit_zero (S := S256x4096) origin]

/-- The block of the first result after the body: the scaled block, computed from the stored doubled positive part
    read back and from the weight row. -/
theorem norm_block (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (arg4 : Memref sig .tc .vmem S256x4096 .f32) (harg4 : arg4.IsWhole)
    (x0 : Vec F S256x4096 .f32) (x1 : Vec F S1x4096 .f32) :
    out0_A_2 c i arg1 harg1 arg2 harg2 arg3 harg3 arg4 harg4 x0 x1 = k0_pay2 (k0_pay1 x0) (k0_pay1 x0) x1 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero (S := S256x4096) origin]
  simp only [View.readCov_unit_zero (S := S256x4096) _ origin, View.readAt_eq_ld, harg1.read_unread, harg2.read_unread,
    View.ld_unit_zero (S := S256x4096) origin, View.ld_unit_zero (S := S1x4096) origin]

end Cert.KernelIdeal.Stores

end
-- ==== Proof.RmsSpec.lean ====
/-
  What both programs compute, on the extended reals, entry by entry.

  Write z for the doubled positive part of an entry h of the hidden state, z = max(h, 0) + max(h, 0). The second
  result is z at every entry. The first result is z · s · w, where s is the scale of the entry's row,
  s = rsqrt((Σ_k z_k · z_k) / 4096 + ε) over the 4096 entries of that row, and w is the weight of the entry's column.
  One program doubles by the product 2 · max(h, 0) and the other by the sum of max(h, 0) with itself; the two agree on
  every extended real, the infinities included (`two_mul_ereal`), so nothing here asks the inputs to be finite.
-/
import Idealize.ShloMosaic.PureOps.Ideal
import Idealize.ShloMosaic.PureOps.Ideal.Laws
import Idealize.ShloMosaic.Lib.ValueIdx

noncomputable section

open scoped BigOperators

namespace Cert.RmsSpec

open Idealize.ShloMosaic Idealize.ShloMosaic.ValueIdx

/-- The pattern of `2.0` denotes the real number two. -/
theorem ofBits_two : Ideal.ofBits .f32 0x40000000#32 = ((2 : ℝ) : EReal) := by
  simp [Ideal.ofBits, Ideal.ieee, -EReal.coe_mul]; norm_num

/-- Twice an extended real is that number added to itself: for a real by `two_mul`, and both sides are the same
    infinity at an infinity. -/
theorem two_mul_ereal (z : EReal) : ((2 : ℝ) : EReal) * z = z + z := by
  induction z using EReal.rec
  · rw [EReal.coe_mul_bot_of_pos (by norm_num : (0 : ℝ) < 2), EReal.bot_add]
  · rw [← EReal.coe_mul, ← EReal.coe_add, two_mul]
  · rw [EReal.coe_mul_top_of_pos (by norm_num : (0 : ℝ) < 2), EReal.top_add_top]

/-- The doubled positive part of one entry. -/
def resid (h : EReal) : EReal :=
  max h (Ideal.ofBits .f32 0x00000000#32) + max h (Ideal.ofBits .f32 0x00000000#32)

/-- The product form of the doubling is the sum form. -/
theorem two_mul_max (h : EReal) :
    Ideal.ofBits .f32 0x40000000#32 * max h (Ideal.ofBits .f32 0x00000000#32) = resid h := by
  rw [ofBits_two, two_mul_ereal]; rfl

/-- The scale of a row of 4096 entries: the reciprocal square root of the mean of the squared doubled positive
    parts, plus ε. -/
def rowScale (row : Fin 4096 → EReal) : EReal :=
  Ideal.rsqrt (Ideal.div (∑ k : Fin 4096, resid (row k) * resid (row k)) (Ideal.ofBits .f32 0x45800000#32)
    + Ideal.ofBits .f32 0x358637BD#32)

/-- A matrix of 8192 rows and 4096 columns, and a vector of 4096 entries, of extended reals. -/
abbrev Mat := (⟨2, ![8192, 4096]⟩ : Shape).Idx → EReal
abbrev Vec4096 := (⟨1, ![4096]⟩ : Shape).Idx → EReal

/-- The second result: every entry doubled and clipped at zero. -/
def residOut (h : Mat) : Mat := fun i => resid (h i)

/-- The first result: the doubled positive part, scaled by its row's scale and by its column's weight. -/
def normOut (h : Mat) (w : Vec4096) : Mat := fun i =>
  resid (h i) * rowScale (fun k => h (ix2 (i 0) k)) * w (ix1 (i 1))

end Cert.RmsSpec

end
-- ==== Proof.LibRows.lean ====
/-
  Layout operations, a one-axis reduction and a plain matrix product READ AT AN INDEX GIVEN BY COORDINATES, in the forms
  the body of a row-blocked kernel meets: a column `[a, 1]` broadcast over the lanes, a vector `[a]` viewed as a column
  `[a, 1]`, the index a reduction over the lane axis inserts, the lane sum and the lane maximum of a row, and the
  product of an `[M, K]` by a `[K, N]` matrix into the zero accumulator. Then the three row-wise bodies built from them:
  the scaled product, the scaled and shifted block, and the row-wise log-softmax of it. Everything is stated over generic
  extents with indices written `ix1` / `ix2`; no program is imported.
-/
import Idealize.ShloMosaic.PureOps.Ideal.Laws
import Idealize.ShloMosaic.Lib.ValueIdx
import Idealize.ShloMosaic.Lib.ValueLayout

open scoped BigOperators

namespace Cert.Proof.LibRows

open Idealize.ShloMosaic Idealize.ShloMosaic.ValueIdx

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index a reduction of `[a, b]` over its lane axis inserts over row `r` at lane `k` is `(r, k)`. -/
theorem lift_lane {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

end Layout

/-! ## A reduction over the lane axis, read at a row -/

section Reduce

/-- The lane sum of an `[a, b]` block at row `r` is the sum over the lanes of the row's entries. -/
theorem multiReduction_add_lane {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_lane h r k))

/-- The lane maximum of an `[a, b]` block at row `r` is the fold of `max`, from the accumulator's value, over the lanes
    of the row's entries. -/
theorem multiReduction_maximumf_lane {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (lift_lane h r k)))

end Reduce

/-! ## The plain matrix product, read at `(r, q)` -/

section Product
variable {M K N : ℕ}

/-- On the left operand's row axis the operand index is the output's row … -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … on its contracted axis the contraction index's one coordinate … -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- … and on the right operand's contracted axis the same coordinate … -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- … on its column axis the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` matrix into the zero accumulator, read at `(r, q)`: the sum over `k` of the
    left operand's row `r` times the right operand's column `q`, exactly (no rounding at the ideal values). -/
theorem matmul_plain_zero_apply (prec : Option ContractPrecision) (x : FVec Ideal ⟨2, ![M, K]⟩ .f32)
    (W : FVec Ideal ⟨2, ![K, N]⟩ .f32) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Product

/-! ## The exponential and the logarithm of a vector, read at an index (definitional at the ideal values) -/

section Pointwise
variable {s : Shape} {φ : FTy}

/-- An exponential at an index is the exponential of the element. -/
theorem exp_apply (x : FVec Ideal s φ) (i : s.Idx) : exp x i = Ideal.exp (x i) := rfl
/-- A logarithm at an index is the logarithm of the element. -/
theorem log_apply (x : FVec Ideal s φ) (i : s.Idx) : log x i = Ideal.log (x i) := rfl

end Pointwise

/-! ## Three row-wise bodies, read at `(r, q)` -/

section Bodies

/-- THE SCALED PRODUCT: an `[M, K]` block times a `[K, N]` matrix into the zero accumulator, each row then scaled by its
    entry of an `[M, 1]` column broadcast over the lanes. At `(r, q)` it is the row sum times the column's entry of row `r`:
    a function of row `r` of the block and of the column only. -/
theorem scaledProduct_apply {M K N : ℕ} (prec : Option ContractPrecision) (x : FVec Ideal ⟨2, ![M, K]⟩ .f32)
    (W : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (r : Fin M) (q : Fin N) :
    mulf (matmul (DotDims.plain M K N) prec x W (constant (F := Ideal) ⟨2, ![M, N]⟩ .f32 0x00000000#32))
        (broadcastTo ⟨2, ![M, N]⟩ (shapeCast ⟨2, ![M, 1]⟩ s hc) hb) (ix2 r q)
      = (∑ k : Fin K, x (ix2 r k) * W (ix2 k q)) * s (ix2 r (0 : Fin 1)) := by
  rw [mulf_apply, broadcastTo_a1_ab_apply, shapeCast_self]
  exact congrArg (· * s (ix2 r (0 : Fin 1))) (matmul_plain_zero_apply prec x W r q)

/-- THE SCALED AND SHIFTED BLOCK: an `[a, b]` block, each row scaled by its entry of an `[a, 1]` column and shifted by a
    `[1, b]` row, both broadcast. At `(r, q)` it is `v (r, q) * s (r, 0) + β (0, q)`. -/
theorem scaleShift_apply {a b : ℕ} (v : FVec Ideal ⟨2, ![a, b]⟩ .f32) (s : FVec Ideal ⟨2, ![a, 1]⟩ .f32)
    (β : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (q : Fin b) :
    addf (mulf (shapeCast ⟨2, ![a, b]⟩ v h0) (broadcastTo ⟨2, ![a, b]⟩ (shapeCast ⟨2, ![a, 1]⟩ s h1) h2))
        (broadcastTo ⟨2, ![a, b]⟩ (shapeCast ⟨2, ![1, b]⟩ β h3) h4) (ix2 r q)
      = v (ix2 r q) * s (ix2 r (0 : Fin 1)) + β (ix2 (0 : Fin 1) q) := by
  rw [addf_apply, mulf_apply, broadcastTo_a1_ab_apply, broadcastTo_1b_ab_apply, shapeCast_self, shapeCast_self,
    shapeCast_self]

/-- THE ROW-WISE LOG-SOFTMAX of an `[a, b]` block `v`: with `m` the lane maximum of a row (kept as a column and
    broadcast back) and `z = v - m`, the body is `z - log (lane sum of exp z)`. Whatever row `r` of `v` is known to be
    (`hv`), at `(r, q)` it is `(f q - m) - log (∑ j, exp (f j - m))` with `m` the fold of `max` over `f` from the
    accumulator's value: a function of row `r` only. -/
theorem logSoftmax_apply {a b : ℕ} (v : FVec Ideal ⟨2, ![a, b]⟩ .f32)
    (hr : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (q : Fin b) (f : Fin b → EReal) (hv : ∀ k, v (ix2 r k) = f k) :
    subf (subf v (broadcastTo ⟨2, ![a, b]⟩
            (shapeCast ⟨2, ![a, 1]⟩ (multiReduction (F := Ideal) .maximumf [1] ⟨1, ![a]⟩ v 0xFF800000#32 hr hφ hm) hc) hb))
        (broadcastTo ⟨2, ![a, b]⟩
          (log (shapeCast ⟨2, ![a, 1]⟩
            (multiReduction (F := Ideal) .add [1] ⟨1, ![a]⟩
              (exp (subf v (broadcastTo ⟨2, ![a, b]⟩
                (shapeCast ⟨2, ![a, 1]⟩ (multiReduction (F := Ideal) .maximumf [1] ⟨1, ![a]⟩ v 0xFF800000#32 hr hφ hm) hc) hb)))
              0x00000000#32 hr hφ' hs) hc)) hb) (ix2 r q)
      = (f q - (Finset.univ : Finset (Fin b)).fold max (Ideal.ofBits .f32 0xFF800000#32) f)
          - Ideal.log (∑ j : Fin b,
              Ideal.exp (f j - (Finset.univ : Finset (Fin b)).fold max (Ideal.ofBits .f32 0xFF800000#32) f)) := by
  -- the centred block at any entry of row `r`
  have hz : ∀ k : Fin b, subf v (broadcastTo ⟨2, ![a, b]⟩
      (shapeCast ⟨2, ![a, 1]⟩ (multiReduction (F := Ideal) .maximumf [1] ⟨1, ![a]⟩ v 0xFF800000#32 hr hφ hm) hc) hb) (ix2 r k)
      = f k - (Finset.univ : Finset (Fin b)).fold max (Ideal.ofBits .f32 0xFF800000#32) f := fun k => by
    rw [subf_apply, broadcastTo_a1_ab_apply, shapeCast_a_a1_apply, multiReduction_maximumf_lane, hv k]
    exact congrArg (fun g : Fin b → EReal => f k - (Finset.univ : Finset (Fin b)).fold max (Ideal.ofBits .f32 0xFF800000#32) g)
      (funext hv)
  rw [subf_apply, hz q, broadcastTo_a1_ab_apply, log_apply, shapeCast_a_a1_apply, multiReduction_add_lane]
  exact congrArg (fun t : EReal => _ - Ideal.log t) (Finset.sum_congr rfl fun j _ => by rw [exp_apply, hz j])

end Bodies

end Cert.Proof.LibRows
-- ==== Proof.RowMath.lean ====
/-
  The two payloads of the body read at one entry, on the extended reals.

  At entry (p, q) of a block of 256 rows the first payload is the doubled positive part of the hidden state's entry.
  The second payload, applied to a block z in both of its read-back places and to a weight row w, is
  z(p, q) · rsqrt((Σ_k z(p, k) · z(p, k)) / 4096 + ε) · w(0, q): the sum runs along row p only, so a row of the result
  depends on that row of z and on w, and on no other row of the block.
-/
import proofs.«403060_j69784628625431_3_alg».proof.Proof.Gen.KernelIdeal.Skeleton
import proofs.«403060_j69784628625431_3_alg».proof.Proof.RmsSpec
import proofs.«403060_j69784628625431_3_alg».proof.Proof.LibRows
import Idealize.ShloMosaic.Lib.Pipeline.Value
import Idealize.ShloMosaic.Lib.ValueLayout

noncomputable section

open scoped BigOperators

namespace Cert.KernelIdeal.RowMath

open Cert.KernelIdeal Cert.KernelIdeal.Gen Idealize.ShloMosaic Idealize.ShloMosaic.ValueIdx Cert.RmsSpec Cert.Proof.LibRows

/-- The first payload at an entry: twice the positive part, which is the positive part added to itself. -/
theorem pay1_apply (x0 : FVec Ideal S256x4096 .f32) (j : S256x4096.Idx) :
    k0_pay1 (F := Ideal) x0 j = resid (x0 j) :=
  two_mul_max (x0 j)

/-- The second payload at entry (p, q): the entry of the block read back, times the scale of its row, times the weight
    of its column. -/
theorem pay2_apply (z : FVec Ideal S256x4096 .f32) (w : FVec Ideal S1x4096 .f32) (p : Fin 256) (q : Fin 4096) :
    k0_pay2 (F := Ideal) z z w (ix2 p q)
      = z (ix2 p q)
          * Ideal.rsqrt (Ideal.div (∑ k : Fin 4096, z (ix2 p k) * z (ix2 p k)) (Ideal.ofBits .f32 0x45800000#32)
              + Ideal.ofBits .f32 0x358637BD#32)
          * w (ix2 (0 : Fin 1) q) := by
  unfold k0_pay2
  dsimp only
  rw [mulf_apply, mulf_apply, broadcastTo_1b_ab_apply, broadcastTo_a1_ab_apply, shapeCast_self, shapeCast_self]
  show z (ix2 p q) * Ideal.rsqrt (Ideal.div
      (shapeCast S256x1 (multiReduction (F := Ideal) .add [1] S256 (mulf z z) 0x00000000#32 reduces_S256x4096_S256 (.inl rfl) rfl)
        shapeCasts_S256_S256x1 (ix2 p (0 : Fin 1))) (Ideal.ofBits .f32 0x45800000#32) + Ideal.ofBits .f32 0x358637BD#32)
    * w (ix2 (0 : Fin 1) q) = _
  rw [shapeCast_a_a1_apply]
  exact congrArg
    (fun s : EReal => z (ix2 p q)
      * Ideal.rsqrt (Ideal.div s (Ideal.ofBits .f32 0x45800000#32) + Ideal.ofBits .f32 0x358637BD#32)
      * w (ix2 (0 : Fin 1) q))
    (multiReduction_add_lane (mulf z z) 0x00000000#32 reduces_S256x4096_S256 (.inl rfl) rfl p)

end Cert.KernelIdeal.RowMath

end
-- ==== Proof.KernelArray.lean ====
/-
  The kernel's two result arrays after the run, as the specification's functions of the argument arrays.

  The grid has 32 points. Point t stages rows 256·t … 256·t + 255 of the hidden state (all 4096 columns) and the one
  weight row, and writes back the same rows of both results. What it writes back depends on those rows only, since the
  scale of a row is a sum along that row; so block t of each result is block t of the specification's function of the
  whole arrays, and the 32 blocks tile the 8192 rows.
-/
import proofs.«403060_j69784628625431_3_alg».proof.Proof.Gen.KernelIdeal.Value
import proofs.«403060_j69784628625431_3_alg».proof.Proof.KernelStores
import proofs.«403060_j69784628625431_3_alg».proof.Proof.RowMath
import Idealize.ShloMosaic.Lib.StableHlo.Run
import Idealize.ShloMosaic.Lib.ValueLayout

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.RmsSpec
open Idealize.ShloMosaic.Pipeline (Dat)

variable (m : (ℓ : Loc nD τ sig) → Buf (Elt Ideal) ℓ) (ρ : Dev nD → PrngReg)

/-- Where each window's block sits at point t: the three row-blocked windows at block row t, the weight row at its one
    block; every window spans all the columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A grid point is below 32. -/
theorem point_lt (t : Fin cfg0.N) : t.val < 32 := lt_of_lt_of_eq t.isLt N_0

/-- The row of the arrays that row p of point t's blocks is. -/
def rowAt (t : Fin cfg0.N) (p : Fin 256) : Fin 8192 :=
  ⟨t.val * 256 + p.val, by have := point_lt t; have := p.isLt; omega⟩

/-- The hidden-state block and the weight row that point t stages, at their literal types. -/
abbrev hblk (c : Dev nD) (t : Fin cfg0.N) : FVec Ideal S256x4096 .f32 := iblk m c 0 t
abbrev wblk (c : Dev nD) (t : Fin cfg0.N) : FVec Ideal S1x4096 .f32 := iblk m c 1 t

/-- The weight row as the region finds it: the weight vector viewed as one row. -/
theorem weight_row (c : Dev nD) :
    (V m c main_v0 : S1x4096.Idx → EReal)
      = shapeCast S1x4096 (m ((c : Thread nD τ).loc main_arg1)) shapeCasts_S4096_S1x4096 := by
  unfold V; after_results; rfl

/-- Row p of point t's hidden-state block is row 256·t + p of the hidden state. -/
theorem hblk_apply (c : Dev nD) (t : Fin cfg0.N) (p : Fin 256) (k : Fin 4096) :
    hblk m c t (ix2 p k) = m ((c : Thread nD τ).loc main_arg0) (ix2 (rowAt t p) k) := by
  obtain ⟨e00, e01, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * k.val = k.val; omega

/-- The weight row every point stages is the weight vector. -/
theorem wblk_apply (c : Dev nD) (t : Fin cfg0.N) (q : Fin 4096) :
    wblk m c t (ix2 (0 : Fin 1) q) = m ((c : Thread nD τ).loc main_arg1) (ix1 q) := by
  obtain ⟨-, -, e10, e11, -⟩ := idx_facts t
  show V m c main_v0 (((cfg0.win 1).blk t).view.emb (ix2 (0 : Fin 1) q)) = _
  have he : ((cfg0.win 1).blk t).view.emb (ix2 (0 : Fin 1) q) = ix2 (0 : Fin 1) q := funext fun a => Fin.ext (by
    match a with
    | ⟨0, _⟩ => show win0_1.index t (0 : Fin 2) * 1 + 1 * 0 = 0; omega
    | ⟨1, _⟩ => show win0_1.index t (1 : Fin 2) * 4096 + 1 * q.val = q.val; omega)
  rw [he, weight_row]
  exact shapeCast_a_1a_apply _ _ 0 q

/-- Entry (p, q) of point t's block of a row-blocked window is entry (256·t + p, q) of its array. -/
theorem emb2 (t : Fin cfg0.N) (p : Fin 256) (q : Fin 4096) :
    ((cfg0.win 2).blk t).view.emb (ix2 p q) = ix2 (rowAt t p) q := by
  obtain ⟨-, -, -, -, e20, e21, -⟩ := idx_facts t
  refine funext fun a => Fin.ext ?_
  match a with
  | ⟨0, _⟩ => show win0_2.index t (0 : Fin 2) * 256 + 1 * p.val = t.val * 256 + p.val; omega
  | ⟨1, _⟩ => show win0_2.index t (1 : Fin 2) * 4096 + 1 * q.val = q.val; omega
theorem emb3 (t : Fin cfg0.N) (p : Fin 256) (q : Fin 4096) :
    ((cfg0.win 3).blk t).view.emb (ix2 p q) = ix2 (rowAt t p) q := by
  obtain ⟨-, -, -, -, -, -, e30, e31⟩ := idx_facts t
  refine funext fun a => Fin.ext ?_
  match a with
  | ⟨0, _⟩ => show win0_3.index t (0 : Fin 2) * 256 + 1 * p.val = t.val * 256 + p.val; omega
  | ⟨1, _⟩ => show win0_3.index t (1 : Fin 2) * 4096 + 1 * q.val = q.val; omega

/-- What point t writes back to the second result is block t of the doubled positive part of the hidden state. -/
theorem flushed3_eq (c : Dev nD) (t : Fin cfg0.N) :
    (dats m 0 c).flushed 3 t
      = ((cfg0.win 3).blk t).view.read (Elt Ideal) (residOut (m ((c : Thread nD τ).loc main_arg0))) := by
  rw [flushed3_A, Stores.resid_block]
  funext j
  obtain ⟨p, q, rfl⟩ : ∃ (p : Fin 256) (q : Fin 4096), j = ix2 p q := ⟨j 0, j 1, eq_ix2 j⟩
  show k0_pay1 (F := Ideal) (hblk m c t) (ix2 p q)
    = residOut (m ((c : Thread nD τ).loc main_arg0)) (((cfg0.win 3).blk t).view.emb (ix2 p q))
  rw [emb3, RowMath.pay1_apply, hblk_apply]
  rfl

/-- What point t writes back to the first result is block t of the scaled array: the row sums it takes run along rows
    of the staged block, which are whole rows of the hidden state. -/
theorem flushed2_eq (c : Dev nD) (t : Fin cfg0.N) :
    (dats m 0 c).flushed 2 t
      = ((cfg0.win 2).blk t).view.read (Elt Ideal)
          (normOut (m ((c : Thread nD τ).loc main_arg0)) (m ((c : Thread nD τ).loc main_arg1))) := by
  rw [flushed2_A, Stores.norm_block]
  funext j
  obtain ⟨p, q, rfl⟩ : ∃ (p : Fin 256) (q : Fin 4096), j = ix2 p q := ⟨j 0, j 1, eq_ix2 j⟩
  show k0_pay2 (F := Ideal) (k0_pay1 (F := Ideal) (hblk m c t)) (k0_pay1 (F := Ideal) (hblk m c t)) (wblk m c t) (ix2 p q)
    = normOut (m ((c : Thread nD τ).loc main_arg0)) (m ((c : Thread nD τ).loc main_arg1))
        (((cfg0.win 2).blk t).view.emb (ix2 p q))
  rw [emb2]
  refine (RowMath.pay2_apply _ _ p q).trans ?_
  simp only [RowMath.pay1_apply, hblk_apply, wblk_apply]
  rfl

/-- An index of a result array is in point t's block iff each coordinate is in the block's range on its axis. -/
theorem mem_blk2 (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1_0).slice (win0_2.rect t)).set ↔ _
  rw [View.set_slice_whole, Rect.mem_set_unit]
  exact Iff.rfl
theorem mem_blk3 (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v1_1).slice (win0_3.rect t)).set ↔ _
  rw [View.set_slice_whole, Rect.mem_set_unit]
  exact Iff.rfl

/-- The point whose blocks hold row r: r / 256. -/
def pointOf (i : S8192x4096.Idx) : Fin cfg0.N :=
  ⟨(i 0).val / 256, lt_of_lt_of_eq (by have h : (i 0).val < 8192 := (i 0).isLt; show (i 0).val / 256 < 32; omega) N_0.symm⟩

/-- The 32 blocks tile each result: row r lies in the block of point r / 256. -/
theorem cover2 (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨-, -, -, -, e20, e21, -⟩ := idx_facts (pointOf i)
  have ht : (pointOf i).val = (i 0).val / 256 := rfl
  refine ⟨pointOf i, flush0_2 _, ?_⟩
  rw [mem_blk2]
  intro a
  match a with
  | ⟨0, _⟩ => show win0_2.index (pointOf i) (0 : Fin 2) * 256 ≤ (i 0).val ∧ (i 0).val < win0_2.index (pointOf i) (0 : Fin 2) * 256 + 256; omega
  | ⟨1, _⟩ => show win0_2.index (pointOf i) (1 : Fin 2) * 4096 ≤ (i 1).val ∧ (i 1).val < win0_2.index (pointOf i) (1 : Fin 2) * 4096 + 4096; omega
theorem cover3 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨-, -, -, -, -, -, e30, e31⟩ := idx_facts (pointOf i)
  have ht : (pointOf i).val = (i 0).val / 256 := rfl
  refine ⟨pointOf i, flush0_3 _, ?_⟩
  rw [mem_blk3]
  intro a
  match a with
  | ⟨0, _⟩ => show win0_3.index (pointOf i) (0 : Fin 2) * 256 ≤ (i 0).val ∧ (i 0).val < win0_3.index (pointOf i) (0 : Fin 2) * 256 + 256; omega
  | ⟨1, _⟩ => show win0_3.index (pointOf i) (1 : Fin 2) * 4096 ≤ (i 1).val ∧ (i 1).val < win0_3.index (pointOf i) (1 : Fin 2) * 4096 + 4096; omega

/-- The first result after the run is the scaled array … -/
theorem final2 (c : Dev nD) :
    (dats m 0 c).arrAt 2 cfg0.N
      = normOut (m ((c : Thread nD τ).loc main_arg0)) (m ((c : Thread nD τ).loc main_arg1)) :=
  (dats m 0 c).arrAt_eq_of_cover 2 _ (fun t _ => flushed2_eq m c t) cover2
/-- … and the second the doubled positive part of the hidden state. -/
theorem final3 (c : Dev nD) :
    (dats m 0 c).arrAt 3 cfg0.N = residOut (m ((c : Thread nD τ).loc main_arg0)) :=
  (dats m 0 c).arrAt_eq_of_cover 3 _ (fun t _ => flushed3_eq m c t) cover3

/-- Every weakly fair execution of the kernel ends with its two results at the specification's functions of the
    arguments, and the arguments as they were. -/
theorem run : θ_run defs (onTc (τ := τ) (main (F := Ideal))) ⟨m, fun _ => 0, ρ⟩ fun r => ∀ c : Dev nD,
      r.2.mem ((c : Thread nD τ).loc main_v1_0)
        = normOut (m ((c : Thread nD τ).loc main_arg0)) (m ((c : Thread nD τ).loc main_arg1))
      ∧ r.2.mem ((c : Thread nD τ).loc main_v1_1) = residOut (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (run_blocks m ρ)

end Cert.KernelIdeal.ArrayValue

end
-- ==== Proof.RefValue.lean ====
/-
  The reference's two results are the specification's two functions of the arguments.

  Read one operation at a time at an entry (r, q): the positive part of h(r, q) is added to itself; the squares of those
  sums are added along row r starting from zero, divided by 4096, ε is added and the reciprocal square root taken; that
  scale is spread back over the row, multiplied into the doubled positive part, and the product is multiplied by the
  weight of column q. The only arithmetic used is that zero plus a sum is the sum.
-/
import proofs.«403060_j69784628625431_3_alg».proof.Proof.Gen.ReferenceIdeal.Read
import proofs.«403060_j69784628625431_3_alg».proof.Proof.RmsSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.RmsSpec

/-- The doubled positive part, at an entry. -/
theorem v1_at (x0 : FVec Ideal S8192x4096 .f32) (i : S8192x4096.Idx) :
    val_main_v1 (F := Ideal) x0 i = resid (x0 i) := by
  rw [val_main_v1_apply, val_main_v0_apply, val_main_call0_v0_apply, val_main_call0_cst_apply]
  rfl

/-- The second result is the doubled positive part of every entry. -/
theorem resid_eq (x0 : FVec Ideal S8192x4096 .f32) : val_main_v1 (F := Ideal) x0 = residOut x0 :=
  funext fun i => v1_at x0 i

/-- The first result is the doubled positive part scaled by its row's scale and its column's weight. -/
theorem norm_eq (x0 : FVec Ideal S8192x4096 .f32) (x1 : FVec Ideal S4096 .f32) :
    val_main_v14 (F := Ideal) x0 x1 = normOut x0 x1 := by
  funext i
  have hrow : ∀ k : Fin 4096, idx_main_v3 (idx_main_v4 (idx_main_v10 i)) k = ix2 (i 0) k := fun k =>
    funext fun a => Fin.ext (by match a with | ⟨0, _⟩ => rfl | ⟨1, _⟩ => rfl)
  have hcol : idx_main_v12 (idx_main_v13 i) = ix1 (i 1) :=
    funext fun a => Fin.ext (by match a with | ⟨0, _⟩ => rfl)
  rw [val_main_v14_apply, val_main_v11_apply, val_main_v13_apply, val_main_v12_apply, val_main_v10_apply,
    val_main_v9_apply, val_main_v8_apply, val_main_v7_apply, val_main_cst_1_apply, val_main_v6_apply, val_main_v5_apply,
    val_main_cst_0_apply, val_main_v4_apply, val_main_v3_apply, val_main_cst_apply, hcol, v1_at]
  simp only [val_main_v2_apply, v1_at, hrow, Ideal.mulf_def, Ideal.addf_def, Ideal.hostDivf_def,
    Ideal.hostUnary_rsqrt_def, Ideal.ofBits_def, Ideal.ofBits_zero_f32, zero_add]
  rfl

end Cert.ReferenceIdeal.RefValue

end
-- ==== Proof.lean ====
/-
  The kernel and its reference compute the same two arrays on the extended reals.

  Both take a hidden state h of 8192 rows by 4096 columns and a weight vector w of 4096 entries. With z the doubled
  positive part of h, entry by entry, the second result is z and the first is z · s · w, where the scale s of a row is
  rsqrt((Σ_k z_k · z_k) / 4096 + ε) over that row and w is taken at the entry's column. The reference forms z as the
  sum max(h, 0) + max(h, 0) on whole arrays; the kernel forms it as the product 2 · max(h, 0), 256 rows at a time,
  stores it, and reads it back for the squares and for the scaled factor. The two doublings agree on every extended
  real, a row's scale involves that row only, and the 32 row blocks tile the array, so the kernel's results are the
  same functions of (h, w) as the reference's. The constants 0, 4096 and ε are the same words in both programs and are
  never evaluated, except that zero plus a sum is the sum. No finiteness of the inputs is used.

  The kernel rewrites nothing when it is read at the ideal values, so that conjunct is trivial; the three frames are the
  frame runs of the kernel at both instances and the reference's run with its results dropped.
-/
import proofs.«403060_j69784628625431_3_alg».proof.Defs
import proofs.«403060_j69784628625431_3_alg».proof.Proof.Gen.Kernel
import proofs.«403060_j69784628625431_3_alg».proof.Proof.Gen.Kernel.Skeleton
import proofs.«403060_j69784628625431_3_alg».proof.Proof.Gen.Kernel.Launch
import proofs.«403060_j69784628625431_3_alg».proof.Proof.Gen.Kernel.Points
import proofs.«403060_j69784628625431_3_alg».proof.Proof.Gen.Kernel.Frame
import proofs.«403060_j69784628625431_3_alg».proof.Proof.Gen.KernelIdeal
import proofs.«403060_j69784628625431_3_alg».proof.Proof.Gen.KernelIdeal.Skeleton
import proofs.«403060_j69784628625431_3_alg».proof.Proof.Gen.KernelIdeal.Launch
import proofs.«403060_j69784628625431_3_alg».proof.Proof.Gen.KernelIdeal.Points
import proofs.«403060_j69784628625431_3_alg».proof.Proof.Gen.KernelIdeal.Frame
import proofs.«403060_j69784628625431_3_alg».proof.Proof.Gen.ReferenceIdeal
import proofs.«403060_j69784628625431_3_alg».proof.Proof.Gen.Pre_finite_inputs
import proofs.«403060_j69784628625431_3_alg».proof.Proof.Gen.KernelIdeal.Value
import proofs.«403060_j69784628625431_3_alg».proof.Proof.Gen.ReferenceIdeal.Run
import proofs.«403060_j69784628625431_3_alg».proof.Proof.Gen.ReferenceIdeal.Read
import proofs.«403060_j69784628625431_3_alg».proof.Proof.KernelArray
import proofs.«403060_j69784628625431_3_alg».proof.Proof.RefValue
import Idealize.ShloMosaic.Adequacy
import Idealize.ShloMosaic.Init

noncomputable section

namespace Cert.Proof

open Idealize.ShloMosaic Idealize.ShloMosaic.TcCoe Idealize.SL.Sem Cert.RmsSpec

/-- The kernel as printed runs to the end with its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says of the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- From memories that agree on (h, w) both programs end with the scaled array and the doubled positive part: the
    kernel's run block by block, the reference's operation by operation, both read as the specification's functions. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v14_eq, Cert.ReferenceIdeal.RefValue.norm_eq, (hagree c).1,
      (hagree c).2]
  · rw [(h c).2.1, Cert.ReferenceIdeal.Read.val_main_v1_eq, Cert.ReferenceIdeal.RefValue.resid_eq, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
